-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x640000 32) (main_arg2 : FVec F S640000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S2560x128 : Shape := ⟨2, ![2560, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 52
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S640000x128, .f32⟩
  | .hbm, ⟨41, _⟩ => ⟨S_, .f32⟩
  | .hbm, ⟨42, _⟩ => ⟨S50000x128, .f32⟩
  | .hbm, ⟨43, _⟩ => ⟨S640000x1, .i32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50000x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2560x128, .f32⟩
  | .local _ .vmem, ⟨13, _⟩ => ⟨S2560x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2560x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S640000x1_S640000x128_1_0_n_n_0_1_1128_wf : GatherDims.WF S50000x128 S640000x1 S640000x128 [1] [0] [] [0] [] 1 ![1, 128]
  dot_S2560x128_S128x128_S2560x128_1_0_0_1_n_n_wf : DotDims.WF S2560x128 S128x128 S2560x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S640000x128.size a
  hwx0_0 : ∀ i : grid0.Coords, EltTy.bits .f32 = 32 ∨ (Rect.block (s := S640000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2560x128.size a ≤ S640000x128.size a
  hwx0_9 : ∀ i : grid0.Coords, EltTy.bits .f32 = 32 ∨ (Rect.block (s := S640000x128) S2560x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2560x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S640000x384, .f32⟩
  | .hbm, ⟨36, _⟩ => ⟨S640000x128, .f32⟩
  | .hbm, ⟨37, _⟩ => ⟨S1x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S1x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S50000x128, .f32⟩
  | .hbm, ⟨49, _⟩ => ⟨S640000x1, .i32⟩
  | .hbm, ⟨50, _⟩ => ⟨S50000x128, .f32⟩
  | .hbm, ⟨51, _⟩ => ⟨S50000x256, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One message-passing layer as a function of index functions over the extended reals.

  Per edge e, with source row xs, destination row xd and edge row ea (each 128 wide):
    hidden k  = max (xs·wS k + xd·wD k + ea·wE k + b1 k) 0
    message j = hidden·w2 j + b2 j
  The messages are summed into their destination nodes (by a function the programs share, a parameter here).
  Per node n, with its own row x and its aggregate row agg:
    hidden k = max (x·wX k + agg·wA k + c1 k) 0
    h j      = x j + (hidden·w2 j + c2 j)
    out j    = (h j − mean h) · rsqrt (mean ((h − mean h)²) + ε) · γ j + β j,   mean v = (∑ v) / 128.
  The first-layer weights of both perceptrons arrive as one tall matrix whose row blocks are wS, wD, wE
  (resp. wX, wA): `rowsFrom` reads a block of rows.
  The three float words (0, 128, ε) stay words: both programs spell the same ones.
-/
import Idealize.ShloMosaic.PureOps.Ideal
import Idealize.ShloMosaic.Lib.ValueIdx

noncomputable section

namespace Cert.Layer

open Idealize.ShloMosaic Idealize.ShloMosaic.ValueIdx

/-- The value of the zero word. -/
abbrev zeroW : EReal := Ideal.ofBits .f32 0x00000000#32
/-- The value of the word for 128, the row width the means divide by. -/
abbrev widthW : EReal := Ideal.ofBits .f32 0x43000000#32
/-- The value of the word for the variance's ε. -/
abbrev epsW : EReal := Ideal.ofBits .f32 0x3727C5AC#32

/-- A two-axis array of extended reals. -/
abbrev Arr (a b : ℕ) : Type := (⟨2, ![a, b]⟩ : Shape).Idx → EReal
/-- A one-axis array of extended reals. -/
abbrev Arr1 (n : ℕ) : Type := (⟨1, ![n]⟩ : Shape).Idx → EReal

/-- An array by rows and columns. -/
def rows {a b : ℕ} (x : Arr a b) : Fin a → Fin b → EReal := fun p q => x (ix2 p q)
/-- The `n` rows of an array that start at row `o`. -/
def rowsFrom {R b : ℕ} (o n : ℕ) (h : o + n ≤ R) (x : Arr R b) : Fin n → Fin b → EReal :=
  fun p q => x (ix2 ⟨o + p.val, by have := p.isLt; omega⟩ q)
/-- A vector by its one coordinate. -/
def vec {n : ℕ} (v : Arr1 n) : Fin n → EReal := fun q => v (ix1 q)
/-- The one row of a [1, n] array. -/
def rowOf {n : ℕ} (v : Arr 1 n) : Fin n → EReal := fun q => v (ix2 (0 : Fin 1) q)

/-- A row through a matrix: entry `k` of `v · w`. -/
def lin {n : ℕ} (v : Fin n → EReal) (w : Fin n → Fin 128 → EReal) (k : Fin 128) : EReal := ∑ l : Fin n, v l * w l k

/-- The hidden activations of one edge. -/
def msgHidden (xs xd ea : Fin 128 → EReal) (wS wD wE : Fin 128 → Fin 128 → EReal) (b1 : Fin 128 → EReal) (k : Fin 128) : EReal :=
  max (lin xs wS k + lin xd wD k + lin ea wE k + b1 k) zeroW

/-- The message of one edge. -/
def msgRow (xs xd ea : Fin 128 → EReal) (wS wD wE : Fin 128 → Fin 128 → EReal) (b1 : Fin 128 → EReal)
    (w2 : Fin 128 → Fin 128 → EReal) (b2 : Fin 128 → EReal) (j : Fin 128) : EReal :=
  lin (msgHidden xs xd ea wS wD wE b1) w2 j + b2 j

/-- The hidden activations of one node's update. -/
def updHidden (x agg : Fin 128 → EReal) (wX wA : Fin 128 → Fin 128 → EReal) (c1 : Fin 128 → EReal) (k : Fin 128) : EReal :=
  max (lin x wX k + lin agg wA k + c1 k) zeroW

/-- A node's row after the residual update, before normalisation. -/
def updPre (x agg : Fin 128 → EReal) (wX wA : Fin 128 → Fin 128 → EReal) (c1 : Fin 128 → EReal)
    (w2 : Fin 128 → Fin 128 → EReal) (c2 : Fin 128 → EReal) (j : Fin 128) : EReal :=
  x j + (lin (updHidden x agg wX wA c1) w2 j + c2 j)

/-- The mean of a row of 128: its sum over the value of the word for 128. -/
def rowMean (h : Fin 128 → EReal) : EReal := Ideal.div (∑ j : Fin 128, h j) widthW

/-- A row with its mean taken off. -/
def centred (h : Fin 128 → EReal) (j : Fin 128) : EReal := h j - rowMean h

/-- Layer normalisation of one row. -/
def layerNorm (h γ β : Fin 128 → EReal) (j : Fin 128) : EReal :=
  centred h j * Ideal.rsqrt (rowMean (fun q => centred h q * centred h q) + epsW) * γ j + β j

/-- One node's output row. -/
def updRow (x agg : Fin 128 → EReal) (wX wA : Fin 128 → Fin 128 → EReal) (c1 : Fin 128 → EReal)
    (w2 : Fin 128 → Fin 128 → EReal) (c2 γ β : Fin 128 → EReal) (j : Fin 128) : EReal :=
  layerNorm (updPre x agg wX wA c1 w2 c2) γ β j

/-- All the messages: edge `e`'s from row `e` of each of the three edge-indexed arrays. -/
def msgArr (xs xd ea : Arr 640000 128) (wS wD wE : Fin 128 → Fin 128 → EReal) (b1 : Fin 128 → EReal)
    (w2 : Fin 128 → Fin 128 → EReal) (b2 : Fin 128 → EReal) : Arr 640000 128 :=
  fun i => msgRow (rows xs (i 0)) (rows xd (i 0)) (rows ea (i 0)) wS wD wE b1 w2 b2 (i 1)

theorem msgArr_apply (xs xd ea : Arr 640000 128) (wS wD wE : Fin 128 → Fin 128 → EReal) (b1 : Fin 128 → EReal)
    (w2 : Fin 128 → Fin 128 → EReal) (b2 : Fin 128 → EReal) (p : Fin 640000) (q : Fin 128) :
    msgArr xs xd ea wS wD wE b1 w2 b2 (ix2 p q) = msgRow (rows xs p) (rows xd p) (rows ea p) wS wD wE b1 w2 b2 q := rfl

/-- All the nodes' outputs: node `n`'s from row `n` of the node array and of the aggregate. -/
def updArr (x agg : Arr 50000 128) (wX wA : Fin 128 → Fin 128 → EReal) (c1 : Fin 128 → EReal)
    (w2 : Fin 128 → Fin 128 → EReal) (c2 γ β : Fin 128 → EReal) : Arr 50000 128 :=
  fun i => updRow (rows x (i 0)) (rows agg (i 0)) wX wA c1 w2 c2 γ β (i 1)

theorem updArr_apply (x agg : Arr 50000 128) (wX wA : Fin 128 → Fin 128 → EReal) (c1 : Fin 128 → EReal)
    (w2 : Fin 128 → Fin 128 → EReal) (c2 γ β : Fin 128 → EReal) (p : Fin 50000) (q : Fin 128) :
    updArr x agg wX wA c1 w2 c2 γ β (ix2 p q) = updRow (rows x p) (rows agg p) wX wA c1 w2 c2 γ β q := rfl

/-- The whole layer. `xs`, `xd` are the gathered source and destination rows and `scat` sums messages into nodes:
    the two programs compute these three by the same host operations, so they are parameters here. -/
def layer (x : Arr 50000 128) (xs xd ea : Arr 640000 128) (scat : Arr 640000 128 → Arr 50000 128)
    (W1 : Arr 384 128) (b1 : Arr1 128) (W2 : Arr 128 128) (b2 : Arr1 128)
    (U1 : Arr 256 128) (c1 : Arr1 128) (U2 : Arr 128 128) (c2 γ β : Arr1 128) : Arr 50000 128 :=
  updArr x
    (scat (msgArr xs xd ea (rowsFrom 0 128 (by norm_num) W1) (rowsFrom 128 128 (by norm_num) W1) (rowsFrom 256 128 (by norm_num) W1)
      (vec b1) (rows W2) (vec b2)))
    (rowsFrom 0 128 (by norm_num) U1) (rowsFrom 128 128 (by norm_num) U1) (vec c1) (rows U2) (vec c2) (vec γ) (vec β)

end Cert.Layer

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.MsgBody.lean ====
/-
  The message kernel's block result, entry by entry.
  From the blocks the body loads (three [2560, 128] edge blocks, four [128, 128] weights, two [1, 128] biases) the
  stored block at (p, q) is the message of the block's p-th edge at column q: the three matrix products into a zero
  accumulator are row-times-matrix sums, their sum plus the bias row clipped at zero is the hidden row, and one more
  product plus the second bias row is the message. Narrowing to bf16 is the identity on the extended reals.
-/
import proofs.«153208_j42099269435541_1_alg».proof.Proof.Gen.KernelIdeal.Skeleton
import proofs.«153208_j42099269435541_1_alg».proof.Proof.Layer
import proofs.«153208_j42099269435541_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.MsgBody

open Cert.KernelIdeal Cert.KernelIdeal.Gen Cert.Layer Idealize.ShloMosaic Idealize.ShloMosaic.ValueIdx

/-! ## The matrix product's operand indices, one axis at a time

The product contracts the left operand's axis 1 with the right operand's axis 0; the left operand's axis 0 and the
right operand's axis 1 are the result's two axes. -/

/-- The left operand's row is the result's row. -/
theorem lhs_row (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
/-- The left operand's column is the contraction coordinate. -/
theorem lhs_col (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
/-- The right operand's row is the contraction coordinate. -/
theorem rhs_row (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
/-- The right operand's column is the result's column. -/
theorem rhs_col (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-! ## The non-pointwise operations at (p, q) -/

/-- A [2560, 128] by [128, 128] product into the zero accumulator: at (p, q), row p of the left operand through
    column q of the right one. -/
theorem product_apply {φ₁ φ₂ : FTy} (l : FVec Ideal S2560x128 φ₁) (r : FVec Ideal S128x128 φ₂) (p : Fin 2560) (q : Fin 128) :
    matmul dot_S2560x128_S128x128_S2560x128_1_0_0_1_n_n none l r (constant (F := Ideal) S2560x128 .f32 0x00000000#32) (ix2 p q)
      = ∑ k : Fin 128, l (ix2 p k) * r (ix2 k q) := by
  show FloatOps.matmul dot_S2560x128_S128x128_S2560x128_1_0_0_1_n_n none l r (constant (F := Ideal) S2560x128 .f32 0x00000000#32) (ix2 p q) = _
  rw [Ideal.matmul_constant_zero_apply, ← Equiv.sum_comp (ValueIdx.contrEquiv1 dot_S2560x128_S128x128_S2560x128_1_0_0_1_n_n 128 rfl rfl).symm]
  refine Finset.sum_congr rfl fun k _ => ?_
  have hk := ValueIdx.contrEquiv1_symm_val dot_S2560x128_S128x128_S2560x128_1_0_0_1_n_n 128 rfl rfl k
  have el : dot_S2560x128_S128x128_S2560x128_1_0_0_1_n_n.lhsIdx (ix2 p q) ((ValueIdx.contrEquiv1 dot_S2560x128_S128x128_S2560x128_1_0_0_1_n_n 128 rfl rfl).symm k) = ix2 p k := funext fun a => Fin.ext (by
    match a with
    | ⟨0, _⟩ => exact lhs_row _ _
    | ⟨1, _⟩ => exact (lhs_col _ _).trans hk)
  have er : dot_S2560x128_S128x128_S2560x128_1_0_0_1_n_n.rhsIdx (ix2 p q) ((ValueIdx.contrEquiv1 dot_S2560x128_S128x128_S2560x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A [1, 128] bias block cast to its own shape and broadcast down the 2560 rows: at (p, q), its entry q. -/
theorem bias_apply (v : FVec Ideal S1x128 .f32) (p : Fin 2560) (q : Fin 128) :
    broadcastTo S2560x128 (shapeCast S1x128 v shapeCasts_S1x128_S1x128) broadcasts_S1x128_S2560x128 (ix2 p q)
      = v (ix2 (0 : Fin 1) q) :=
  Cert.LibKeepdims.row_broadcast_apply v shapeCasts_S1x128_S1x128 broadcasts_S1x128_S2560x128 p q

/-- The clipping constant, broadcast: the value of the zero word everywhere. -/
theorem zero_apply (i : S2560x128.Idx) :
    broadcast S2560x128 (Scalar.ofBits (F := Ideal) .f32 0x00000000#32) i = zeroW := rfl

/-! ## The block -/

/-- The stored block of the message kernel at (p, q) is the message row of the block's p-th edge at q. -/
theorem pay_apply (x0 x1 x2 : Vec Ideal S2560x128 .f32) (x3 x4 x5 : Vec Ideal S128x128 .f32) (x6 : Vec Ideal S1x128 .f32)
    (x7 : Vec Ideal S128x128 .f32) (x8 : Vec Ideal S1x128 .f32) (p : Fin 2560) (q : Fin 128) :
    k0_pay1 (F := Ideal) x0 x1 x2 x3 x4 x5 x6 x7 x8 (ix2 p q)
      = msgRow (fun l => x0 (ix2 p l)) (fun l => x1 (ix2 p l)) (fun l => x2 (ix2 p l)) (rows x3) (rows x4) (rows x5) (rowOf x6)
          (rows x7) (rowOf x8) q := by
  unfold k0_pay1
  simp only [shapeCast_self (s := S2560x128), shapeCast_self (s := S128x128), addf_apply, product_apply, bias_apply, truncf_apply,
    maximumf_apply, zero_apply]
  rfl

end Cert.KernelIdeal.MsgBody

end
-- ==== Proof.MsgValue.lean ====
/-
  The message array after the first region, as one function of the arrays the region finds.
  Grid point t of 250 writes rows 2560·t … 2560·t + 2559 of the message array, computed from the same rows of the three
  edge-indexed arrays and from the whole weight and bias arrays; the 250 blocks tile the 640000 rows. So the array ends
  holding every edge's message.
-/
import proofs.«153208_j42099269435541_1_alg».proof.Proof.Gen.KernelIdeal.Frame
import proofs.«153208_j42099269435541_1_alg».proof.Proof.Layer
import Idealize.ShloMosaic.Lib.ValueIdx
import Idealize.ShloMosaic.Lib.Pipeline.Value
import proofs.«153208_j42099269435541_1_alg».proof.Proof.MsgBody

set_option maxRecDepth 16384

noncomputable section

namespace Cert.KernelIdeal.MsgValue

open Cert.KernelIdeal Cert.KernelIdeal.Gen Cert.Layer Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block offsets are zero where the body reads and writes its whole staging buffers -/

theorem zero_offsets : (![0, 0] : Fin 2 → Nat) = fun _ => 0 := funext fun a => by fin_cases a <;> rfl

/-! ## The index maps, decided over the grid

The three edge-indexed inputs and the output sit at block row `t`, block column 0; the weights and biases are one
block each, at block (0, 0). -/

theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The input blocks at a point -/

/-- Point `t`'s block of the first edge-indexed array, row `p`: row 2560·t + p of the array. -/
theorem edge_rows_0 (c : Dev nD) (t : Fin cfg0.N) (p : Fin 2560) (r : Fin 640000) (hr : r.val = t.val * 2560 + p.val) :
    (fun l : Fin 128 => (iblk0 V c 0 t : Vec Ideal S2560x128 .f32) (ix2 p l)) = rows (V c main_v10) r := by
  obtain ⟨a00, a01, a10, a11, a20, a21, a30, a31, a40, a41, a50, a51, a60, a61, a70, a71, a80, a81, a90, a91⟩ := block_indices t
  funext l
  unfold iblk0
  rw [View.read_apply]
  show V c main_v10 _ = V c main_v10 (ix2 r l)
  congr 1
  funext a
  apply Fin.ext
  match a with
  | ⟨0, _⟩ => show win0_0.index t (0 : Fin 2) * 2560 + 1 * p.val = r.val; omega
  | ⟨1, _⟩ => show win0_0.index t (1 : Fin 2) * 128 + 1 * l.val = l.val; omega

/-- Point `t`'s block of the second edge-indexed array, row `p`: row 2560·t + p of the array. -/
theorem edge_rows_1 (c : Dev nD) (t : Fin cfg0.N) (p : Fin 2560) (r : Fin 640000) (hr : r.val = t.val * 2560 + p.val) :
    (fun l : Fin 128 => (iblk0 V c 1 t : Vec Ideal S2560x128 .f32) (ix2 p l)) = rows (V c main_v17) r := by
  obtain ⟨a00, a01, a10, a11, a20, a21, a30, a31, a40, a41, a50, a51, a60, a61, a70, a71, a80, a81, a90, a91⟩ := block_indices t
  funext l
  unfold iblk0
  rw [View.read_apply]
  show V c main_v17 _ = V c main_v17 (ix2 r l)
  congr 1
  funext a
  apply Fin.ext
  match a with
  | ⟨0, _⟩ => show win0_1.index t (0 : Fin 2) * 2560 + 1 * p.val = r.val; omega
  | ⟨1, _⟩ => show win0_1.index t (1 : Fin 2) * 128 + 1 * l.val = l.val; omega

/-- Point `t`'s block of the third edge-indexed array, row `p`: row 2560·t + p of the array. -/
theorem edge_rows_2 (c : Dev nD) (t : Fin cfg0.N) (p : Fin 2560) (r : Fin 640000) (hr : r.val = t.val * 2560 + p.val) :
    (fun l : Fin 128 => (iblk0 V c 2 t : Vec Ideal S2560x128 .f32) (ix2 p l)) = rows (V c main_arg2) r := by
  obtain ⟨a00, a01, a10, a11, a20, a21, a30, a31, a40, a41, a50, a51, a60, a61, a70, a71, a80, a81, a90, a91⟩ := block_indices t
  funext l
  unfold iblk0
  rw [View.read_apply]
  show V c main_arg2 _ = V c main_arg2 (ix2 r l)
  congr 1
  funext a
  apply Fin.ext
  match a with
  | ⟨0, _⟩ => show win0_2.index t (0 : Fin 2) * 2560 + 1 * p.val = r.val; omega
  | ⟨1, _⟩ => show win0_2.index t (1 : Fin 2) * 128 + 1 * l.val = l.val; omega

/-- The one block of the first weight matrix is the whole array, at every point. -/
theorem whole_3 (c : Dev nD) (t : Fin cfg0.N) : (iblk0 V c 3 t : Vec Ideal S128x128 .f32) = V c main_v18 := by
  obtain ⟨a00, a01, a10, a11, a20, a21, a30, a31, a40, a41, a50, a51, a60, a61, a70, a71, a80, a81, a90, a91⟩ := block_indices t
  funext y
  unfold iblk0
  rw [View.read_apply]
  show V c main_v18 _ = V c main_v18 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The one block of the second weight matrix is the whole array, at every point. -/
theorem whole_4 (c : Dev nD) (t : Fin cfg0.N) : (iblk0 V c 4 t : Vec Ideal S128x128 .f32) = V c main_v19 := by
  obtain ⟨a00, a01, a10, a11, a20, a21, a30, a31, a40, a41, a50, a51, a60, a61, a70, a71, a80, a81, a90, a91⟩ := block_indices t
  funext y
  unfold iblk0
  rw [View.read_apply]
  show V c main_v19 _ = V c main_v19 y
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The one block of the third weight matrix is the whole array, at every point. -/
theorem whole_5 (c : Dev nD) (t : Fin cfg0.N) : (iblk0 V c 5 t : Vec Ideal S128x128 .f32) = V c main_v20 := by
  obtain ⟨a00, a01, a10, a11, a20, a21, a30, a31, a40, a41, a50, a51, a60, a61, a70, a71, a80, a81, a90, a91⟩ := block_indices t
  funext y
  unfold iblk0
  rw [View.read_apply]
  show V c main_v20 _ = V c main_v20 y
  congr 1
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The one block of the first bias row is the whole array, at every point. -/
theorem whole_6 (c : Dev nD) (t : Fin cfg0.N) : (iblk0 V c 6 t : Vec Ideal S1x128 .f32) = V c main_v21 := by
  obtain ⟨a00, a01, a10, a11, a20, a21, a30, a31, a40, a41, a50, a51, a60, a61, a70, a71, a80, a81, a90, a91⟩ := block_indices t
  funext y
  unfold iblk0
  rw [View.read_apply]
  show V c main_v21 _ = V c main_v21 y
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The one block of the output weight matrix is the whole array, at every point. -/
theorem whole_7 (c : Dev nD) (t : Fin cfg0.N) : (iblk0 V c 7 t : Vec Ideal S128x128 .f32) = V c main_arg5 := by
  obtain ⟨a00, a01, a10, a11, a20, a21, a30, a31, a40, a41, a50, a51, a60, a61, a70, a71, a80, a81, a90, a91⟩ := block_indices t
  funext y
  unfold iblk0
  rw [View.read_apply]
  show V c main_arg5 _ = V c main_arg5 y
  congr 1
  funext a
  apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The one block of the second bias row is the whole array, at every point. -/
theorem whole_8 (c : Dev nD) (t : Fin cfg0.N) : (iblk0 V c 8 t : Vec Ideal S1x128 .f32) = V c main_v22 := by
  obtain ⟨a00, a01, a10, a11, a20, a21, a30, a31, a40, a41, a50, a51, a60, a61, a70, a71, a80, a81, a90, a91⟩ := block_indices t
  funext y
  unfold iblk0
  rw [View.read_apply]
  show V c main_v22 _ = V c main_v22 y
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What a point writes back -/

/-- Every edge's message, from the arrays as the region finds them. -/
abbrev messages (c : Dev nD) : Arr 640000 128 :=
  msgArr (V c main_v10) (V c main_v17) (V c main_arg2) (rows (V c main_v18)) (rows (V c main_v19)) (rows (V c main_v20))
    (rowOf (V c main_v21)) (rows (V c main_arg5)) (rowOf (V c main_v22))

/-- Point `t` writes back block `t` of the messages: rows 2560·t … 2560·t + 2559. -/
theorem flushed_eq (c : Dev nD) (t : Fin cfg0.N) :
    (dat0 (F := Ideal) V c).flushed 9 t = ((cfg0.win 9).blk t).view.read (Elt Ideal) (messages V c) := by
  show (cfg0.win 9).cut (grid0.coords t) ((dat0 V c).after 9 t) = _
  rw [after0_9]
  unfold out0_9
  rw [View.canon_unit_zero zero_offsets]
  simp only [View.ld_unit_zero (S := S2560x128) zero_offsets, View.ld_unit_zero (S := S128x128) zero_offsets,
    View.ld_unit_zero (S := S1x128) zero_offsets]
  funext j
  obtain ⟨p, q, rfl⟩ : ∃ (p : Fin 2560) (q : Fin 128), j = ix2 p q := ⟨j 0, j 1, eq_ix2 j⟩
  have hN : cfg0.N = 250 := N_0
  have ht : t.val < 250 := by have := t.isLt; omega
  have hp : p.val < 2560 := p.isLt
  obtain ⟨a00, a01, a10, a11, a20, a21, a30, a31, a40, a41, a50, a51, a60, a61, a70, a71, a80, a81, a90, a91⟩ := block_indices t
  have hemb : ((cfg0.win 9).blk t).view.emb (ix2 p q) = ix2 (⟨t.val * 2560 + p.val, by omega⟩ : Fin 640000) q := by
    funext a
    apply Fin.ext
    match a with
    | ⟨0, _⟩ => show win0_9.index t (0 : Fin 2) * 2560 + 1 * p.val = t.val * 2560 + p.val; omega
    | ⟨1, _⟩ => show win0_9.index t (1 : Fin 2) * 128 + 1 * q.val = q.val; omega
  show k0_pay1 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = messages V c (((cfg0.win 9).blk t).view.emb (ix2 p q))
  rw [hemb, MsgBody.pay_apply, edge_rows_0 V c t p ⟨t.val * 2560 + p.val, by omega⟩ rfl,
    edge_rows_1 V c t p ⟨t.val * 2560 + p.val, by omega⟩ rfl, edge_rows_2 V c t p ⟨t.val * 2560 + p.val, by omega⟩ rfl,
    whole_3 V c t, whole_4 V c t, whole_5 V c t, whole_6 V c t, whole_7 V c t, whole_8 V c t]
  rfl

/-! ## The blocks tile the array -/

/-- A row and column are in point `t`'s block iff each is in the block's range on its axis. -/
theorem mem_block (t : Fin cfg0.N) (i : S640000x128.Idx) :
    i ∈ ((cfg0.win 9).blk t).view.set ↔ ∀ a : Fin 2, win0_9.index t a * S2560x128.size a ≤ (i a).val ∧ (i a).val < win0_9.index t a * S2560x128.size a + S2560x128.size a := by
  show i ∈ ((View.whole main_v23).slice (win0_9.rect t)).set ↔ _
  rw [View.set_slice_whole, Rect.mem_set_unit]
  exact Iff.rfl

/-- Row `r` is in the block of point `r / 2560`, which writes back. -/
theorem covered (i : S640000x128.Idx) :
    ∃ t : Fin cfg0.N, (cfg0.win 9).flush t = true ∧ i ∈ ((cfg0.win 9).blk t).view.set := by
  have hN : cfg0.N = 250 := N_0
  have hi0 : (i 0).val < 640000 := (i 0).isLt
  have hi1 : (i 1).val < 128 := (i 1).isLt
  obtain ⟨t, ht⟩ : ∃ t : Fin cfg0.N, t.val = (i 0).val / 2560 := ⟨⟨(i 0).val / 2560, by omega⟩, rfl⟩
  obtain ⟨a00, a01, a10, a11, a20, a21, a30, a31, a40, a41, a50, a51, a60, a61, a70, a71, a80, a81, a90, a91⟩ := block_indices t
  refine ⟨t, flush0_9 t, ?_⟩
  rw [mem_block]
  intro a
  match a with
  | ⟨0, _⟩ => show win0_9.index t (0 : Fin 2) * 2560 ≤ (i 0).val ∧ (i 0).val < win0_9.index t (0 : Fin 2) * 2560 + 2560; omega
  | ⟨1, _⟩ => show win0_9.index t (1 : Fin 2) * 128 ≤ (i 1).val ∧ (i 1).val < win0_9.index t (1 : Fin 2) * 128 + 128; omega

/-! ## The array after the region -/

/-- After region 0, its output array holds the messages of all edges, from the region's entry contents `V`. -/
theorem msg_final (c : Dev nD) :
    (dat0 (F := Ideal) V c).arrAt 9 cfg0.N
      = msgArr (V c main_v10) (V c main_v17) (V c main_arg2) (rows (V c main_v18)) (rows (V c main_v19)) (rows (V c main_v20))
          (rowOf (V c main_v21)) (rows (V c main_arg5)) (rowOf (V c main_v22)) := by
  exact (dat0 (F := Ideal) V c).arrAt_eq_of_cover 9 (messages V c) (fun t _ => flushed_eq V c t) covered

end Cert.KernelIdeal.MsgValue

end
-- ==== Proof.UpdBody.lean ====
/-
  The update kernel's block result, entry by entry.
  From the blocks the body loads (the node block and the aggregate block, [5000, 128]; three [128, 128] weights; four
  [1, 128] rows) the stored block at (p, q) is the layer-normalised residual update of the block's p-th node at q. The two
  row means are lane sums over the value of the word for 128, kept as columns and broadcast back across the row.
-/
import proofs.«153208_j42099269435541_1_alg».proof.Proof.Gen.KernelIdeal.Skeleton
import proofs.«153208_j42099269435541_1_alg».proof.Proof.Layer
import proofs.«153208_j42099269435541_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.UpdBody

open Cert.KernelIdeal Cert.KernelIdeal.Gen Cert.Layer Idealize.ShloMosaic Idealize.ShloMosaic.ValueIdx

/-! ## A block product at an entry

The body's three products contract the columns of a [5000, 128] block with the rows of a [128, 128] weight, into the zero
block. At (p, q) each is the sum over k of left (p, k) · right (k, q): the contraction index is re-indexed by its one
coordinate, and the operand indices are read axis by axis. -/

/-- The block product's left operand index keeps the output's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the contracted coordinate in its columns. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index runs along the contracted coordinate in its rows … -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] by [128, 128] block product into the zero block, at (p, q): the sum over k of l (p, k) · r (k, q). -/
theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The residual update before normalisation -/

/-- The residual update at (p, l), written out: the node's entry plus the second layer (a product with the third weight,
    plus its bias row) of the hidden activations, which are the maximum with the value of the zero word of the two first-layer
    products plus their bias row. -/
theorem pre_apply_sums (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (l : Fin 128) :
    k1_pay2 (F := Ideal) x0 x1 x2 x3 x4 x5 x6 (ix2 p l)
      = x0 (ix2 p l) + ((∑ k : Fin 128, max ((∑ j : Fin 128, x0 (ix2 p j) * x2 (ix2 j k)) + (∑ j : Fin 128, x1 (ix2 p j) * x3 (ix2 j k))
          + x4 (ix2 (0 : Fin 1) k)) (Ideal.ofBits .f32 0x00000000#32) * x5 (ix2 k l)) + x6 (ix2 (0 : Fin 1) l)) := by
  unfold k1_pay2
  simp only [addf_apply, product_apply, broadcastTo_1b_ab_apply, maximumf_apply, truncf_apply, broadcast_apply,
    shapeCast_self, Ideal.ofBits_def]

/-- The residual update at (p, l) is the p-th node's row after the residual update, at l. -/
theorem pre_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (l : Fin 128) :
    k1_pay2 (F := Ideal) x0 x1 x2 x3 x4 x5 x6 (ix2 p l)
      = updPre (fun l => x0 (ix2 p l)) (fun l => x1 (ix2 p l)) (rows x2) (rows x3) (rowOf x4) (rows x5) (rowOf x6) l :=
  pre_apply_sums x0 x1 x2 x3 x4 x5 x6 p l

/-! ## Columns: a row statistic kept as [5000, 1] and spread back across the row -/

section Columns
variable {α : Type}

/-- A vector [a] cast to a column [a, 1]: at (p, 0), the vector at p. -/
theorem column_cast_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h _ _ ?_
  rw [Shape.rowMajor_val_one, Shape.rowMajor_val_two]
  show p.val = p.val * 1 + 0
  omega

/-- A column [a, 1] broadcast across the columns of [a, b]: at (p, q), the column at p. -/
theorem column_spread_apply {a b : ℕ} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) := by
  refine broadcastTo_apply col h (ix2 p q) (ix2 p (0 : Fin 1)) fun ax => ?_
  match ax with
  | ⟨0, _⟩ =>
    show p.val = if a = 1 then 0 else p.val
    split
    · have := p.isLt; omega
    · rfl
  | ⟨1, _⟩ => rfl

end Columns

/-- A reciprocal square root at an index is that of the element. -/
theorem rsqrt_apply {s : Shape} {φ : FTy} (a : FVec Ideal s φ) (i : s.Idx) : rsqrt a i = Ideal.rsqrt (a i) := rfl

/-! ## The two row statistics and the normalised block -/

/-- The column of row means: at (p, 0), the sum of row p of the residual update over the value of the word for 128. -/
theorem mean_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) :
    k1_pay3 (F := Ideal) x0 x1 x2 x3 x4 x5 x6 (ix2 p (0 : Fin 1))
      = Ideal.div (∑ l : Fin 128, k1_pay2 (F := Ideal) x0 x1 x2 x3 x4 x5 x6 (ix2 p l)) (Ideal.ofBits .f32 0x43000000#32) := by
  unfold k1_pay3
  simp only [divf_apply, broadcast_apply, column_cast_apply, Ideal.ofBits_def]
  exact congrArg (fun s => Ideal.div s (Ideal.ofBits .f32 0x43000000#32))
    (Cert.LibKeepdims.lane_sum_apply (k1_pay2 (F := Ideal) x0 x1 x2 x3 x4 x5 x6) reduces_S5000x128_S5000 _ _ p)

/-- The column of sums of squares: at (p, 0), the sum over row p of the squared residual update with the row's mean taken
    off. -/
theorem squares_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) :
    k1_pay4 (F := Ideal) x0 x1 x2 x3 x4 x5 x6 (ix2 p (0 : Fin 1))
      = ∑ l : Fin 128, (k1_pay2 (F := Ideal) x0 x1 x2 x3 x4 x5 x6 (ix2 p l) - k1_pay3 (F := Ideal) x0 x1 x2 x3 x4 x5 x6 (ix2 p (0 : Fin 1)))
          * (k1_pay2 (F := Ideal) x0 x1 x2 x3 x4 x5 x6 (ix2 p l) - k1_pay3 (F := Ideal) x0 x1 x2 x3 x4 x5 x6 (ix2 p (0 : Fin 1))) := by
  unfold k1_pay4
  simp only [column_cast_apply]
  refine (Cert.LibKeepdims.lane_sum_apply _ reduces_S5000x128_S5000 _ _ p).trans ?_
  simp only [mulf_apply, subf_apply, column_spread_apply]

/-- The stored block from a residual update `h`, a column of row means `mu` and a column of sums of squares `s`: at
    (p, q), the centred entry times the reciprocal root of the mean square plus ε, times the scale row plus the shift row. -/
theorem norm_apply (h : FVec Ideal S5000x128 .f32) (mu s : FVec Ideal S5000x1 .f32) (x7 x8 : Vec Ideal S1x128 .f32)
    (p : Fin 5000) (q : Fin 128) :
    k1_pay1 (F := Ideal) h mu s x7 x8 (ix2 p q)
      = (h (ix2 p q) - mu (ix2 p (0 : Fin 1)))
          * Ideal.rsqrt (Ideal.div (s (ix2 p (0 : Fin 1))) (Ideal.ofBits .f32 0x43000000#32) + Ideal.ofBits .f32 0x3727C5AC#32)
          * x7 (ix2 (0 : Fin 1) q) + x8 (ix2 (0 : Fin 1) q) := by
  unfold k1_pay1
  simp only [addf_apply, mulf_apply, subf_apply, divf_apply, broadcast_apply, broadcastTo_1b_ab_apply, column_spread_apply,
    shapeCast_self, Ideal.ofBits_def, rsqrt_apply]

/-! ## The stored block -/

/-- The stored block of the update kernel at (p, q) is the output row of the block's p-th node at q. -/
theorem pay_apply (x0 x1 : Vec Ideal S5000x128 .f32) (x2 x3 : Vec Ideal S128x128 .f32) (x4 : Vec Ideal S1x128 .f32)
    (x5 : Vec Ideal S128x128 .f32) (x6 x7 x8 : Vec Ideal S1x128 .f32) (p : Fin 5000) (q : Fin 128) :
    k1_pay1 (F := Ideal) (k1_pay2 x0 x1 x2 x3 x4 x5 x6) (k1_pay3 x0 x1 x2 x3 x4 x5 x6) (k1_pay4 x0 x1 x2 x3 x4 x5 x6) x7 x8 (ix2 p q)
      = updRow (fun l => x0 (ix2 p l)) (fun l => x1 (ix2 p l)) (rows x2) (rows x3) (rowOf x4) (rows x5) (rowOf x6) (rowOf x7)
          (rowOf x8) q := by
  rw [norm_apply, squares_apply, mean_apply]
  simp only [pre_apply]
  rfl

end Cert.KernelIdeal.UpdBody

end
-- ==== Proof.UpdValue.lean ====
/-
  The result array after the second region, as one function of the arrays the region finds.
  Grid point t of 10 writes rows 5000·t … 5000·t + 4999 of the result, computed from the same rows of the node array and
  of the aggregate and from the whole weight, bias, scale and shift arrays; the 10 blocks tile the 50000 rows.
-/
import proofs.«153208_j42099269435541_1_alg».proof.Proof.Gen.KernelIdeal.Frame
import proofs.«153208_j42099269435541_1_alg».proof.Proof.Layer
import Idealize.ShloMosaic.Lib.ValueIdx
import Idealize.ShloMosaic.Lib.Pipeline.Value
import proofs.«153208_j42099269435541_1_alg».proof.Proof.UpdBody

set_option maxRecDepth 16384

noncomputable section

namespace Cert.KernelIdeal.UpdValue

open Cert.KernelIdeal Cert.KernelIdeal.Gen Cert.Layer Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid and the windows' block indices -/

/-- The body's accesses start at the origin of their buffers. -/
theorem origin_zero : (![0, 0] : Fin 2 → Nat) = fun _ => 0 := funext fun a => by fin_cases a <;> rfl

/-- The printed index maps over the grid: the node, aggregate and result windows' block index at point t is (t, 0); the
    weight and row windows' is (0, 0). -/
theorem index_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The grid has 10 points. -/
theorem grid_points : cfg1.N = 10 := N_1

/-- Row p of block t is a row of the array. -/
theorem row_lt (t : Fin cfg1.N) (p : Fin 5000) : t.val * 5000 + p.val < 50000 := by
  have := t.isLt; have := grid_points; have := p.isLt; omega

/-! ## The input blocks, read off their arrays -/

/-- The node block at point t, at (p, l): the node array at row 5000 t + p, column l. -/
theorem node_block (c : Dev nD) (t : Fin cfg1.N) (p : Fin 5000) (l : Fin 128) :
    iblk1 V c 0 t (ix2 p l) = V c main_arg0 (ix2 (⟨t.val * 5000 + p.val, row_lt t p⟩ : Fin 50000) l) := by
  obtain ⟨-, -, e0, e1, -⟩ := index_facts t
  show V c main_arg0 (((cfg1.win 0).blk t).view.emb (ix2 p l)) = _
  refine congrArg (V c main_arg0) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * l.val = l.val; omega

/-- The aggregate block at point t, at (p, l): the aggregate at row 5000 t + p, column l. -/
theorem agg_block (c : Dev nD) (t : Fin cfg1.N) (p : Fin 5000) (l : Fin 128) :
    iblk1 V c 1 t (ix2 p l) = V c main_v26 (ix2 (⟨t.val * 5000 + p.val, row_lt t p⟩ : Fin 50000) l) := by
  obtain ⟨-, -, -, -, e0, e1, -⟩ := index_facts t
  show V c main_v26 (((cfg1.win 1).blk t).view.emb (ix2 p l)) = _
  refine congrArg (V c main_v26) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * l.val = l.val; omega

/-- The block of the weight on the node's own row is the whole weight at every point. -/
theorem block_2 (c : Dev nD) (t : Fin cfg1.N) : iblk1 V c 2 t = V c main_v27 := by
  obtain ⟨-, -, -, -, -, -, e0, e1, -⟩ := index_facts t
  funext y
  show V c main_v27 (((cfg1.win 2).blk t).view.emb y) = V c main_v27 y
  refine congrArg (V c main_v27) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The block of the weight on the aggregate row is the whole weight at every point. -/
theorem block_3 (c : Dev nD) (t : Fin cfg1.N) : iblk1 V c 3 t = V c main_v28 := by
  obtain ⟨-, -, -, -, -, -, -, -, e0, e1, -⟩ := index_facts t
  funext y
  show V c main_v28 (((cfg1.win 3).blk t).view.emb y) = V c main_v28 y
  refine congrArg (V c main_v28) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The block of the first bias row is the whole row at every point. -/
theorem block_4 (c : Dev nD) (t : Fin cfg1.N) : iblk1 V c 4 t = V c main_v29 := by
  obtain ⟨-, -, -, -, -, -, -, -, -, -, e0, e1, -⟩ := index_facts t
  funext y
  show V c main_v29 (((cfg1.win 4).blk t).view.emb y) = V c main_v29 y
  refine congrArg (V c main_v29) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The block of the second layer's weight is the whole weight at every point. -/
theorem block_5 (c : Dev nD) (t : Fin cfg1.N) : iblk1 V c 5 t = V c main_arg9 := by
  obtain ⟨-, -, -, -, -, -, -, -, -, -, -, -, e0, e1, -⟩ := index_facts t
  funext y
  show V c main_arg9 (((cfg1.win 5).blk t).view.emb y) = V c main_arg9 y
  refine congrArg (V c main_arg9) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The block of the second bias row is the whole row at every point. -/
theorem block_6 (c : Dev nD) (t : Fin cfg1.N) : iblk1 V c 6 t = V c main_v30 := by
  obtain ⟨-, -, -, -, -, -, -, -, -, -, -, -, -, -, e0, e1, -⟩ := index_facts t
  funext y
  show V c main_v30 (((cfg1.win 6).blk t).view.emb y) = V c main_v30 y
  refine congrArg (V c main_v30) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The block of the scale row is the whole row at every point. -/
theorem block_7 (c : Dev nD) (t : Fin cfg1.N) : iblk1 V c 7 t = V c main_v31 := by
  obtain ⟨-, -, -, -, -, -, -, -, -, -, -, -, -, -, -, -, e0, e1, -⟩ := index_facts t
  funext y
  show V c main_v31 (((cfg1.win 7).blk t).view.emb y) = V c main_v31 y
  refine congrArg (V c main_v31) (funext fun a => Fin.ext ?_)
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- The block of the shift row is the whole row at every point. -/
theorem block_8 (c : Dev nD) (t : Fin cfg1.N) : iblk1 V c 8 t = V c main_v32 := by
  obtain ⟨-, -, -, -, -, -, -, -, -, -, -, -, -, -, -, -, -, -, e0, e1⟩ := index_facts t
  funext y
  show V c main_v32 (((cfg1.win 8).blk t).view.emb y) = V c main_v32 y
  refine congrArg (V c main_v32) (funext fun a => Fin.ext ?_)
  match a with
  | ⟨0, _⟩ => show win1_8.index t (0 : Fin 2) * 1 + 1 * (y 0).val = (y 0).val; omega
  | ⟨1, _⟩ => show win1_8.index t (1 : Fin 2) * 128 + 1 * (y 1).val = (y 1).val; omega
/-! ## What a point writes back -/

/-- The result block's element (p, q) at point t sits at row 5000 t + p, column q of the result array. -/
theorem result_emb (t : Fin cfg1.N) (p : Fin 5000) (q : Fin 128) :
    ((cfg1.win 9).blk t).view.emb (ix2 p q) = ix2 (⟨t.val * 5000 + p.val, row_lt t p⟩ : Fin 50000) q := by
  obtain ⟨e0, e1, -⟩ := index_facts t
  refine funext fun a => Fin.ext ?_
  match a with
  | ⟨0, _⟩ => show win1_9.index t (0 : Fin 2) * 5000 + 1 * p.val = t.val * 5000 + p.val; omega
  | ⟨1, _⟩ => show win1_9.index t (1 : Fin 2) * 128 + 1 * q.val = q.val; omega

/-- What point t writes back is block t of the array of all the nodes' output rows. -/
theorem flushed_eq (c : Dev nD) (t : Fin cfg1.N) :
    (dat1 (F := Ideal) V c).flushed 9 t = ((cfg1.win 9).blk t).view.read (Elt Ideal)
      (updArr (V c main_arg0) (V c main_v26) (rows (V c main_v27)) (rows (V c main_v28)) (rowOf (V c main_v29))
          (rows (V c main_arg9)) (rowOf (V c main_v30)) (rowOf (V c main_v31)) (rowOf (V c main_v32))) := by
  show (cfg1.win 9).cut (grid1.coords t) ((dat1 V c).after 9 t) = _
  rw [after1_9]
  unfold out1_9
  rw [View.canon_unit_zero origin_zero]
  simp only [View.ld_unit_zero (S := S5000x128) origin_zero, View.ld_unit_zero (S := S128x128) origin_zero, View.ld_unit_zero (S := S1x128) origin_zero]
  funext j
  obtain ⟨p, q, rfl⟩ : ∃ (p : Fin 5000) (q : Fin 128), j = ix2 p q := ⟨j 0, j 1, eq_ix2 j⟩
  refine (UpdBody.pay_apply _ _ _ _ _ _ _ _ _ p q).trans ?_
  show _ = updArr (V c main_arg0) (V c main_v26) (rows (V c main_v27)) (rows (V c main_v28)) (rowOf (V c main_v29))
      (rows (V c main_arg9)) (rowOf (V c main_v30)) (rowOf (V c main_v31)) (rowOf (V c main_v32)) (((cfg1.win 9).blk t).view.emb (ix2 p q))
  rw [result_emb, updArr_apply]
  simp only [node_block, agg_block, block_2, block_3, block_4, block_5, block_6, block_7, block_8]
  rfl

/-! ## The blocks tile the result -/

/-- An index of the result array is in point t's block iff each coordinate is in the block's range on its axis. -/
theorem mem_block (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v33).slice (win1_9.rect t)).set ↔ _
  rw [View.set_slice_whole, Rect.mem_set_unit]
  exact Iff.rfl

/-- Every row r of the result array is in the block of point r / 5000, which is written back. -/
theorem covered (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [grid_points]; omega⟩, rfl⟩
  obtain ⟨e0, e1, -⟩ := index_facts t
  refine ⟨t, flush1_9 t, ?_⟩
  rw [mem_block]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- After region 1, its output array holds every node's output row, from the region's entry contents `V`. -/
theorem upd_final (c : Dev nD) :
    (dat1 (F := Ideal) V c).arrAt 9 cfg1.N
      = updArr (V c main_arg0) (V c main_v26) (rows (V c main_v27)) (rows (V c main_v28)) (rowOf (V c main_v29))
          (rows (V c main_arg9)) (rowOf (V c main_v30)) (rowOf (V c main_v31)) (rowOf (V c main_v32)) :=
  (dat1 (F := Ideal) V c).arrAt_eq_of_cover 9 _ (fun t _ => flushed_eq V c t) covered

end Cert.KernelIdeal.UpdValue

end
-- ==== Proof.LayerOf.lean ====
/-
  The layer of thirteen argument arrays, with the three index-driven pieces named by the host operations that compute
  them: the rows gathered at the edges' sources and at their destinations (negative indices wrapped by the node count
  first) and the scatter-add of messages into a zero array at the raw destinations. Both programs compute these three by
  the same operations, so the layer is stated once over them and they are never opened.
-/
import proofs.«153208_j42099269435541_1_alg».proof.Proof.Gen.ReferenceIdeal.Read
import proofs.«153208_j42099269435541_1_alg».proof.Proof.Layer

noncomputable section

namespace Cert.ReferenceIdeal

open Cert.ReferenceIdeal.Gen Cert.Layer Idealize.ShloMosaic Idealize.ShloMosaic.TcCoe Idealize.SL.Sem Idealize.ShloMosaic.StableHlo

/-- The layer's result from the argument arrays: `Read.val_main_v10` / `val_main_v17` are the gathered source and
    destination rows, `val_main_v28` the zero array and `val_main_v29` the destination indices as a column. -/
def layerOf (x0 : (⟨S50000x128, .f32⟩ : BufTy).Contents (Elt Ideal)) (x1 : (⟨S2x640000, .i32⟩ : BufTy).Contents (Elt Ideal))
    (x2 : (⟨S640000x128, .f32⟩ : BufTy).Contents (Elt Ideal)) (x3 : (⟨S384x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x128, .f32⟩ : BufTy).Contents (Elt Ideal))
    (x10 x11 x12 : (⟨S128, .f32⟩ : BufTy).Contents (Elt Ideal)) : Arr 50000 128 :=
  layer x0 (Read.val_main_v10 (F := Ideal) x0 x1) (Read.val_main_v17 (F := Ideal) x0 x1) x2
    (fun (u : (⟨S640000x128, .f32⟩ : BufTy).Contents (Elt Ideal)) =>
      Host.scatterAdd (F := Ideal) (φ := .f32) scatter_S50000x128_S640000x1_S640000x128_1_0_0_1 (Read.val_main_v28 (F := Ideal))
        (Read.val_main_v29 (F := Ideal) x1) u)
    x3 x4 x5 x6 x7 x8 x9 x10 x11 x12

end Cert.ReferenceIdeal

end
-- ==== Proof.KernelValue.lean ====
/-
  What the kernel program leaves in its result array: the layer of the launch contents.
  The program is a stretch of host operations, the message region, a second stretch, the update region. Read backwards
  from the last boundary: the result array is the update region's output, a function of that region's entry contents;
  those are the second stretch's results — the scatter-add of the message array into zeros, two row blocks of the update
  matrix, four vectors as rows — over the first region's exit; the message array there is the message region's output, a
  function of ITS entry contents, which are the first stretch's results: the two gathers, three row blocks of the message
  matrix, two vectors as rows. A row block of a matrix read by rows is `rowsFrom`; a vector reshaped to one row, read as
  that row, is the vector.
-/
import proofs.«153208_j42099269435541_1_alg».proof.Proof.KernelRun
import proofs.«153208_j42099269435541_1_alg».proof.Proof.MsgValue
import proofs.«153208_j42099269435541_1_alg».proof.Proof.UpdValue
import proofs.«153208_j42099269435541_1_alg».proof.Proof.LayerOf
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Value

open Cert.KernelIdeal Cert.KernelIdeal.Gen Cert.Layer Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Two layout facts -/

/-- A block of 128 rows cut out of a taller matrix, read by rows, is those rows of the matrix. -/
theorem rows_slice {R : ℕ} (o : ℕ) (h : o + 128 ≤ R) (W : Arr R 128)
    (hs : (⟨2, ![R, 128]⟩ : Shape).Slices ![o, 0] ⟨2, ![128, 128]⟩) :
    rows (extractStridedSlice ⟨2, ![128, 128]⟩ ![o, 0] W hs) = rowsFrom o 128 h W := by
  funext p q
  show extractStridedSlice ⟨2, ![128, 128]⟩ ![o, 0] W hs (ix2 p q) = W (ix2 ⟨o + p.val, by have := p.isLt; omega⟩ q)
  exact extractStridedSlice_apply ![o, 0] W hs (ix2 p q) (ix2 ⟨o + p.val, by have := p.isLt; omega⟩ q)
    (fun a => match a with
      | ⟨0, _⟩ => rfl
      | ⟨1, _⟩ => by show q.val = 0 + q.val; omega)

/-- A vector laid out as one row, read as that row, is the vector. -/
theorem rowOf_reshape (v : Arr1 128) (h : (⟨1, ![128]⟩ : Shape).ShapeCasts ⟨2, ![1, 128]⟩) :
    rowOf (shapeCast ⟨2, ![1, 128]⟩ v h) = vec v := by
  funext q
  show shapeCast ⟨2, ![1, 128]⟩ v h (ix2 (0 : Fin 1) q) = v (ix1 q)
  refine shapeCast_apply v h _ _ ?_
  rw [Shape.rowMajor_val_one, Shape.rowMajor_val_two]
  show q.val = 0 * 128 + q.val
  omega

/-! ## The first stretch: what the message region finds -/

theorem xs_eq (c : Dev nD) :
    V1 (F := Ideal) m ρ c main_v10 = Cert.ReferenceIdeal.Read.val_main_v10 (F := Ideal) (m ((c.tc : Thread nD τ).loc main_arg0)) (m ((c.tc : Thread nD τ).loc main_arg1)) := by
  show StableHlo.after hostOps0 (W0 m ρ c) (Proc.devRef .tc main_v10) = _
  dsimp only [hostOps0]
  after_results
  all_goals rfl

theorem xd_eq (c : Dev nD) :
    V1 (F := Ideal) m ρ c main_v17 = Cert.ReferenceIdeal.Read.val_main_v17 (F := Ideal) (m ((c.tc : Thread nD τ).loc main_arg0)) (m ((c.tc : Thread nD τ).loc main_arg1)) := by
  show StableHlo.after hostOps0 (W0 m ρ c) (Proc.devRef .tc main_v17) = _
  dsimp only [hostOps0]
  after_results_simp
  all_goals rfl

theorem ea_eq (c : Dev nD) : V1 (F := Ideal) m ρ c main_arg2 = (m ((c.tc : Thread nD τ).loc main_arg2)) := by
  show StableHlo.after hostOps0 (W0 m ρ c) (Proc.devRef .tc main_arg2) = _
  dsimp only [hostOps0]
  after_results
  all_goals rfl

theorem w2_eq (c : Dev nD) : V1 (F := Ideal) m ρ c main_arg5 = (m ((c.tc : Thread nD τ).loc main_arg5)) := by
  show StableHlo.after hostOps0 (W0 m ρ c) (Proc.devRef .tc main_arg5) = _
  dsimp only [hostOps0]
  after_results
  all_goals rfl

theorem wS_eq (c : Dev nD) : rows (V1 (F := Ideal) m ρ c main_v18) = rowsFrom 0 128 (by norm_num) (m ((c.tc : Thread nD τ).loc main_arg3)) := by
  have e : V1 (F := Ideal) m ρ c main_v18 = extractStridedSlice S128x128 ![0, 0] (m ((c.tc : Thread nD τ).loc main_arg3)) Facts₀.slices_S384x128_S128x128_0_0 := by
    show StableHlo.after hostOps0 (W0 m ρ c) (Proc.devRef .tc main_v18) = _
    dsimp only [hostOps0]
    after_results
    all_goals rfl
  rw [e]
  exact rows_slice 0 _ _ _

theorem wD_eq (c : Dev nD) : rows (V1 (F := Ideal) m ρ c main_v19) = rowsFrom 128 128 (by norm_num) (m ((c.tc : Thread nD τ).loc main_arg3)) := by
  have e : V1 (F := Ideal) m ρ c main_v19 = extractStridedSlice S128x128 ![128, 0] (m ((c.tc : Thread nD τ).loc main_arg3)) Facts₀.slices_S384x128_S128x128_128_0 := by
    show StableHlo.after hostOps0 (W0 m ρ c) (Proc.devRef .tc main_v19) = _
    dsimp only [hostOps0]
    after_results
    all_goals rfl
  rw [e]
  exact rows_slice 128 _ _ _

theorem wE_eq (c : Dev nD) : rows (V1 (F := Ideal) m ρ c main_v20) = rowsFrom 256 128 (by norm_num) (m ((c.tc : Thread nD τ).loc main_arg3)) := by
  have e : V1 (F := Ideal) m ρ c main_v20 = extractStridedSlice S128x128 ![256, 0] (m ((c.tc : Thread nD τ).loc main_arg3)) Facts₀.slices_S384x128_S128x128_256_0 := by
    show StableHlo.after hostOps0 (W0 m ρ c) (Proc.devRef .tc main_v20) = _
    dsimp only [hostOps0]
    after_results
    all_goals rfl
  rw [e]
  exact rows_slice 256 _ _ _

theorem b1_eq (c : Dev nD) : rowOf (V1 (F := Ideal) m ρ c main_v21) = vec (m ((c.tc : Thread nD τ).loc main_arg4)) := by
  have e : V1 (F := Ideal) m ρ c main_v21 = shapeCast S1x128 (m ((c.tc : Thread nD τ).loc main_arg4)) Facts₀.shapeCasts_S128_S1x128 := by
    show StableHlo.after hostOps0 (W0 m ρ c) (Proc.devRef .tc main_v21) = _
    dsimp only [hostOps0]
    after_results
    all_goals rfl
  rw [e]
  exact rowOf_reshape _ _

theorem b2_eq (c : Dev nD) : rowOf (V1 (F := Ideal) m ρ c main_v22) = vec (m ((c.tc : Thread nD τ).loc main_arg6)) := by
  have e : V1 (F := Ideal) m ρ c main_v22 = shapeCast S1x128 (m ((c.tc : Thread nD τ).loc main_arg6)) Facts₀.shapeCasts_S128_S1x128 := by
    show StableHlo.after hostOps0 (W0 m ρ c) (Proc.devRef .tc main_v22) = _
    dsimp only [hostOps0]
    after_results
    all_goals rfl
  rw [e]
  exact rowOf_reshape _ _

/-- The message array the first region leaves: every edge's message, from the launch contents. -/
theorem messages_eq (c : Dev nD) :
    W2 (F := Ideal) m ρ c (Proc.devRef .tc main_v23)
      = msgArr (Cert.ReferenceIdeal.Read.val_main_v10 (F := Ideal) (m ((c.tc : Thread nD τ).loc main_arg0)) (m ((c.tc : Thread nD τ).loc main_arg1))) (Cert.ReferenceIdeal.Read.val_main_v17 (F := Ideal) (m ((c.tc : Thread nD τ).loc main_arg0)) (m ((c.tc : Thread nD τ).loc main_arg1)))
          (m ((c.tc : Thread nD τ).loc main_arg2)) (rowsFrom 0 128 (by norm_num) (m ((c.tc : Thread nD τ).loc main_arg3))) (rowsFrom 128 128 (by norm_num) (m ((c.tc : Thread nD τ).loc main_arg3)))
          (rowsFrom 256 128 (by norm_num) (m ((c.tc : Thread nD τ).loc main_arg3))) (vec (m ((c.tc : Thread nD τ).loc main_arg4))) (rows (m ((c.tc : Thread nD τ).loc main_arg5))) (vec (m ((c.tc : Thread nD τ).loc main_arg6))) := by
  refine (W2_arr m ρ c 9).trans ?_
  rw [Cert.KernelIdeal.MsgValue.msg_final (V1 m ρ) c, xs_eq, xd_eq, ea_eq, w2_eq, wS_eq, wD_eq, wE_eq, b1_eq, b2_eq]

/-! ## The second stretch: what the update region finds -/

/-- An argument array that neither region writes and no host operation writes still holds its launch contents
    after the first region. -/
theorem w2_arg0 (c : Dev nD) : W2 (F := Ideal) m ρ c (Proc.devRef .tc main_arg0) = (m ((c.tc : Thread nD τ).loc main_arg0)) :=
  (W2_of_ne m ρ c main_arg0 (by decide)).trans (by
    show StableHlo.after hostOps0 (W0 m ρ c) (Proc.devRef .tc main_arg0) = _
    dsimp only [hostOps0]
    after_results
    all_goals rfl)

theorem w2_arg1 (c : Dev nD) : W2 (F := Ideal) m ρ c (Proc.devRef .tc main_arg1) = (m ((c.tc : Thread nD τ).loc main_arg1)) :=
  (W2_of_ne m ρ c main_arg1 (by decide)).trans (by
    show StableHlo.after hostOps0 (W0 m ρ c) (Proc.devRef .tc main_arg1) = _
    dsimp only [hostOps0]
    after_results
    all_goals rfl)

theorem w2_arg7 (c : Dev nD) : W2 (F := Ideal) m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    dsimp only [hostOps0]
    after_results
    all_goals rfl)

theorem w2_arg8 (c : Dev nD) : W2 (F := Ideal) m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    dsimp only [hostOps0]
    after_results
    all_goals rfl)

theorem w2_arg9 (c : Dev nD) : W2 (F := Ideal) m ρ c (Proc.devRef .tc main_arg9) = (m ((c.tc : Thread nD τ).loc main_arg9)) :=
  (W2_of_ne m ρ c main_arg9 (by decide)).trans (by
    show StableHlo.after hostOps0 (W0 m ρ c) (Proc.devRef .tc main_arg9) = _
    dsimp only [hostOps0]
    after_results
    all_goals rfl)

theorem w2_arg10 (c : Dev nD) : W2 (F := Ideal) m ρ c (Proc.devRef .tc main_arg10) = (m ((c.tc : Thread nD τ).loc main_arg10)) :=
  (W2_of_ne m ρ c main_arg10 (by decide)).trans (by
    show StableHlo.after hostOps0 (W0 m ρ c) (Proc.devRef .tc main_arg10) = _
    dsimp only [hostOps0]
    after_results
    all_goals rfl)

theorem w2_arg11 (c : Dev nD) : W2 (F := Ideal) m ρ c (Proc.devRef .tc main_arg11) = (m ((c.tc : Thread nD τ).loc main_arg11)) :=
  (W2_of_ne m ρ c main_arg11 (by decide)).trans (by
    show StableHlo.after hostOps0 (W0 m ρ c) (Proc.devRef .tc main_arg11) = _
    dsimp only [hostOps0]
    after_results
    all_goals rfl)

theorem w2_arg12 (c : Dev nD) : W2 (F := Ideal) m ρ c (Proc.devRef .tc main_arg12) = (m ((c.tc : Thread nD τ).loc main_arg12)) :=
  (W2_of_ne m ρ c main_arg12 (by decide)).trans (by
    show StableHlo.after hostOps0 (W0 m ρ c) (Proc.devRef .tc main_arg12) = _
    dsimp only [hostOps0]
    after_results
    all_goals rfl)

theorem x_eq (c : Dev nD) : V3 (F := Ideal) m ρ c main_arg0 = (m ((c.tc : Thread nD τ).loc main_arg0)) := by
  show StableHlo.after hostOps1 (W2 m ρ c) (Proc.devRef .tc main_arg0) = _
  dsimp only [hostOps1]
  after_results
  exact w2_arg0 m ρ c

theorem u2_eq (c : Dev nD) : V3 (F := Ideal) m ρ c main_arg9 = (m ((c.tc : Thread nD τ).loc main_arg9)) := by
  show StableHlo.after hostOps1 (W2 m ρ c) (Proc.devRef .tc main_arg9) = _
  dsimp only [hostOps1]
  after_results
  exact w2_arg9 m ρ c

theorem uX_eq (c : Dev nD) : rows (V3 (F := Ideal) m ρ c main_v27) = rowsFrom 0 128 (by norm_num) (m ((c.tc : Thread nD τ).loc main_arg7)) := by
  have e : V3 (F := Ideal) m ρ c main_v27 = extractStridedSlice S128x128 ![0, 0] (m ((c.tc : Thread nD τ).loc main_arg7)) Facts₀.slices_S256x128_S128x128_0_0 := by
    show StableHlo.after hostOps1 (W2 m ρ c) (Proc.devRef .tc main_v27) = _
    dsimp only [hostOps1]
    after_results
    rw [w2_arg7]
  rw [e]
  exact rows_slice 0 _ _ _

theorem uA_eq (c : Dev nD) : rows (V3 (F := Ideal) m ρ c main_v28) = rowsFrom 128 128 (by norm_num) (m ((c.tc : Thread nD τ).loc main_arg7)) := by
  have e : V3 (F := Ideal) m ρ c main_v28 = extractStridedSlice S128x128 ![128, 0] (m ((c.tc : Thread nD τ).loc main_arg7)) Facts₀.slices_S256x128_S128x128_128_0 := by
    show StableHlo.after hostOps1 (W2 m ρ c) (Proc.devRef .tc main_v28) = _
    dsimp only [hostOps1]
    after_results
    rw [w2_arg7]
  rw [e]
  exact rows_slice 128 _ _ _

theorem c1_eq (c : Dev nD) : rowOf (V3 (F := Ideal) m ρ c main_v29) = vec (m ((c.tc : Thread nD τ).loc main_arg8)) := by
  have e : V3 (F := Ideal) m ρ c main_v29 = shapeCast S1x128 (m ((c.tc : Thread nD τ).loc main_arg8)) Facts₀.shapeCasts_S128_S1x128 := by
    show StableHlo.after hostOps1 (W2 m ρ c) (Proc.devRef .tc main_v29) = _
    dsimp only [hostOps1]
    after_results
    rw [w2_arg8]
    rfl
  rw [e]
  exact rowOf_reshape _ _

theorem c2_eq (c : Dev nD) : rowOf (V3 (F := Ideal) m ρ c main_v30) = vec (m ((c.tc : Thread nD τ).loc main_arg10)) := by
  have e : V3 (F := Ideal) m ρ c main_v30 = shapeCast S1x128 (m ((c.tc : Thread nD τ).loc main_arg10)) Facts₀.shapeCasts_S128_S1x128 := by
    show StableHlo.after hostOps1 (W2 m ρ c) (Proc.devRef .tc main_v30) = _
    dsimp only [hostOps1]
    after_results
    rw [w2_arg10]
    rfl
  rw [e]
  exact rowOf_reshape _ _

theorem gamma_eq (c : Dev nD) : rowOf (V3 (F := Ideal) m ρ c main_v31) = vec (m ((c.tc : Thread nD τ).loc main_arg11)) := by
  have e : V3 (F := Ideal) m ρ c main_v31 = shapeCast S1x128 (m ((c.tc : Thread nD τ).loc main_arg11)) Facts₀.shapeCasts_S128_S1x128 := by
    show StableHlo.after hostOps1 (W2 m ρ c) (Proc.devRef .tc main_v31) = _
    dsimp only [hostOps1]
    after_results
    rw [w2_arg11]
    rfl
  rw [e]
  exact rowOf_reshape _ _

theorem beta_eq (c : Dev nD) : rowOf (V3 (F := Ideal) m ρ c main_v32) = vec (m ((c.tc : Thread nD τ).loc main_arg12)) := by
  have e : V3 (F := Ideal) m ρ c main_v32 = shapeCast S1x128 (m ((c.tc : Thread nD τ).loc main_arg12)) Facts₀.shapeCasts_S128_S1x128 := by
    show StableHlo.after hostOps1 (W2 m ρ c) (Proc.devRef .tc main_v32) = _
    dsimp only [hostOps1]
    after_results
    rw [w2_arg12]
    rfl
  rw [e]
  exact rowOf_reshape _ _

/-- The raw destination indices (row 1 of the edge index array, as a vector) are untouched by the first region. -/
theorem dst_eq (c : Dev nD) :
    W2 (F := Ideal) m ρ c (Proc.devRef .tc main_v3) = Cert.ReferenceIdeal.Read.val_main_v3 (F := Ideal) (m ((c.tc : Thread nD τ).loc main_arg1)) :=
  (W2_of_ne m ρ c main_v3 (by decide)).trans (by
    show StableHlo.after hostOps0 (W0 m ρ c) (Proc.devRef .tc main_v3) = _
    dsimp only [hostOps0]
    after_results
    all_goals rfl)

/-- The aggregate the update region finds: the messages summed into a zero array at their destinations. -/
theorem agg_eq (c : Dev nD) :
    V3 (F := Ideal) m ρ c main_v26
      = Host.scatterAdd (F := Ideal) (φ := .f32) Cert.ReferenceIdeal.scatter_S50000x128_S640000x1_S640000x128_1_0_0_1 (Cert.ReferenceIdeal.Read.val_main_v28 (F := Ideal))
          (Cert.ReferenceIdeal.Read.val_main_v29 (F := Ideal) (m ((c.tc : Thread nD τ).loc main_arg1)))
          (msgArr (Cert.ReferenceIdeal.Read.val_main_v10 (F := Ideal) (m ((c.tc : Thread nD τ).loc main_arg0)) (m ((c.tc : Thread nD τ).loc main_arg1))) (Cert.ReferenceIdeal.Read.val_main_v17 (F := Ideal) (m ((c.tc : Thread nD τ).loc main_arg0)) (m ((c.tc : Thread nD τ).loc main_arg1)))
            (m ((c.tc : Thread nD τ).loc main_arg2)) (rowsFrom 0 128 (by norm_num) (m ((c.tc : Thread nD τ).loc main_arg3))) (rowsFrom 128 128 (by norm_num) (m ((c.tc : Thread nD τ).loc main_arg3)))
            (rowsFrom 256 128 (by norm_num) (m ((c.tc : Thread nD τ).loc main_arg3))) (vec (m ((c.tc : Thread nD τ).loc main_arg4))) (rows (m ((c.tc : Thread nD τ).loc main_arg5))) (vec (m ((c.tc : Thread nD τ).loc main_arg6)))) := by
  show StableHlo.after hostOps1 (W2 m ρ c) (Proc.devRef .tc main_v26) = _
  dsimp only [hostOps1]
  after_results
  rw [messages_eq, dst_eq]
  rfl

/-! ## The result -/
/-- The result array at the last boundary is the layer of the launch contents. -/
theorem value (c : Dev nD) :
    W4 (F := Ideal) m ρ c (Proc.devRef .tc main_v33)
      = Cert.ReferenceIdeal.layerOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W4_arr m ρ c 9).trans ?_
  rw [Cert.KernelIdeal.UpdValue.upd_final (V3 m ρ) c, x_eq, agg_eq, uX_eq, uA_eq, c1_eq, u2_eq, c2_eq, gamma_eq, beta_eq]
  rfl

/-- The kernel program's run with its result named: the layer of the launch contents, the arguments unchanged. -/
theorem run : θ_run defs (onTc (τ := τ) (main (F := Ideal))) ⟨m, fun _ => 0, ρ⟩ (fun r => ∀ c : Dev nD,
      r.2.mem ((c.tc : Thread nD τ).loc main_v33) = Cert.ReferenceIdeal.layerOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (value m ρ c), (h c).2⟩) (Cert.KernelIdeal.Named.run_named m ρ)

end Cert.KernelIdeal.Value

end
-- ==== Proof.RefValue.lean ====
/-
  The reference computes the layer.
  Its program concatenates the gathered source rows, the gathered destination rows and the edge rows into [640000, 384]
  and multiplies by the whole first-layer matrix: a sum over 384 that splits, at 128 and 256, into the three sums over
  128 against the matrix's three row blocks. The update's [50000, 256] concatenation splits the same way in two. Its
  layer normalisation is the kernel's, spelt with host operations: sums from a zero initial value, a quotient by the word
  for 128, the host's reciprocal square root.
-/
import proofs.«153208_j42099269435541_1_alg».proof.Proof.LayerOf
import proofs.«153208_j42099269435541_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Cert.Layer
open Idealize.ShloMosaic Idealize.ShloMosaic.TcCoe Idealize.ShloMosaic.ValueIdx Idealize.SL.Sem Idealize.ShloMosaic.StableHlo

/-! ### A sum over 256 or 384 in runs of 128

Addition in a commutative monoid is all that is used: nothing is distributed, so the extended reals need no finiteness. -/

/-- A sum over 256 is the sum over the first 128 plus the sum over the last 128. -/
theorem sum_two_runs {M : Type*} [AddCommMonoid M] (f : Fin 256 → M) :
    ∑ k : Fin 256, f k = ∑ m : Fin 128, f ⟨0 + m.val, by omega⟩ + ∑ m : Fin 128, f ⟨128 + m.val, by omega⟩ := by
  refine (Fin.sum_univ_add (a := 128) (b := 128) f).trans ?_
  refine congrArg₂ (· + ·) (Finset.sum_congr rfl fun m _ => congrArg f (Fin.ext ?_))
    (Finset.sum_congr rfl fun m _ => congrArg f (Fin.ext ?_))
  · show m.val = 0 + m.val
    omega
  · rfl

/-- A sum over 384 is the sum of its three runs of 128. -/
theorem sum_three_runs {M : Type*} [AddCommMonoid M] (f : Fin 384 → M) :
    ∑ k : Fin 384, f k = ∑ m : Fin 128, f ⟨0 + m.val, by omega⟩ + ∑ m : Fin 128, f ⟨128 + m.val, by omega⟩
      + ∑ m : Fin 128, f ⟨256 + m.val, by omega⟩ := by
  refine (Fin.sum_univ_add (a := 256) (b := 128) f).trans ?_
  refine congrArg₂ (· + ·) ?_ (Finset.sum_congr rfl fun m _ => congrArg f (Fin.ext ?_))
  · refine (sum_two_runs fun k : Fin 256 => f (Fin.castAdd 128 k)).trans ?_
    rfl
  · rfl

/-! ### The two concatenations along the columns, read at an index

Column `o + m` of the joined array, `o` the widths of the pieces before piece `k`, is column `m` of piece `k`. -/

section Concat
variable {α : Type}

/-- Columns 0 … 127 of the three-piece join are the first piece. -/
theorem concat3_apply0 (a b c : S640000x128.Idx → α) (h : Shape.Concatenates [S640000x128, S640000x128, S640000x128] S640000x384 1)
    (p : Fin 640000) (m : Fin 128) :
    concatenate S640000x384 1 [⟨S640000x128, a⟩, ⟨S640000x128, b⟩, ⟨S640000x128, c⟩] h (ix2 p (⟨0 + m.val, by omega⟩ : Fin 384))
      = a (ix2 p m) := by
  refine concatenate_apply_piece (1 : Fin S640000x384.rank) [⟨S640000x128, a⟩, ⟨S640000x128, b⟩, ⟨S640000x128, c⟩] h _ 0 (by simp)
    S640000x128 a rfl rfl 0 rfl (ix2 p m) ?_ ?_
  · intro d hd
    match d with
    | ⟨0, _⟩ => rfl
    | ⟨1, _⟩ => exact absurd rfl hd
  · rfl

/-- Columns 128 … 255 of the three-piece join are the second piece. -/
theorem concat3_apply1 (a b c : S640000x128.Idx → α) (h : Shape.Concatenates [S640000x128, S640000x128, S640000x128] S640000x384 1)
    (p : Fin 640000) (m : Fin 128) :
    concatenate S640000x384 1 [⟨S640000x128, a⟩, ⟨S640000x128, b⟩, ⟨S640000x128, c⟩] h (ix2 p (⟨128 + m.val, by omega⟩ : Fin 384))
      = b (ix2 p m) := by
  refine concatenate_apply_piece (1 : Fin S640000x384.rank) [⟨S640000x128, a⟩, ⟨S640000x128, b⟩, ⟨S640000x128, c⟩] h _ 1 (by simp)
    S640000x128 b rfl rfl 128 rfl (ix2 p m) ?_ ?_
  · intro d hd
    match d with
    | ⟨0, _⟩ => rfl
    | ⟨1, _⟩ => exact absurd rfl hd
  · rfl

/-- Columns 256 … 383 of the three-piece join are the third piece. -/
theorem concat3_apply2 (a b c : S640000x128.Idx → α) (h : Shape.Concatenates [S640000x128, S640000x128, S640000x128] S640000x384 1)
    (p : Fin 640000) (m : Fin 128) :
    concatenate S640000x384 1 [⟨S640000x128, a⟩, ⟨S640000x128, b⟩, ⟨S640000x128, c⟩] h (ix2 p (⟨256 + m.val, by omega⟩ : Fin 384))
      = c (ix2 p m) := by
  refine concatenate_apply_piece (1 : Fin S640000x384.rank) [⟨S640000x128, a⟩, ⟨S640000x128, b⟩, ⟨S640000x128, c⟩] h _ 2 (by simp)
    S640000x128 c rfl rfl 256 rfl (ix2 p m) ?_ ?_
  · intro d hd
    match d with
    | ⟨0, _⟩ => rfl
    | ⟨1, _⟩ => exact absurd rfl hd
  · rfl

/-- Columns 0 … 127 of the two-piece join are the first piece. -/
theorem concat2_apply0 (a b : S50000x128.Idx → α) (h : Shape.Concatenates [S50000x128, S50000x128] S50000x256 1)
    (p : Fin 50000) (m : Fin 128) :
    concatenate S50000x256 1 [⟨S50000x128, a⟩, ⟨S50000x128, b⟩] h (ix2 p (⟨0 + m.val, by omega⟩ : Fin 256)) = a (ix2 p m) := by
  refine concatenate_apply_piece (1 : Fin S50000x256.rank) [⟨S50000x128, a⟩, ⟨S50000x128, b⟩] h _ 0 (by simp)
    S50000x128 a rfl rfl 0 rfl (ix2 p m) ?_ ?_
  · intro d hd
    match d with
    | ⟨0, _⟩ => rfl
    | ⟨1, _⟩ => exact absurd rfl hd
  · rfl

/-- Columns 128 … 255 of the two-piece join are the second piece. -/
theorem concat2_apply1 (a b : S50000x128.Idx → α) (h : Shape.Concatenates [S50000x128, S50000x128] S50000x256 1)
    (p : Fin 50000) (m : Fin 128) :
    concatenate S50000x256 1 [⟨S50000x128, a⟩, ⟨S50000x128, b⟩] h (ix2 p (⟨128 + m.val, by omega⟩ : Fin 256)) = b (ix2 p m) := by
  refine concatenate_apply_piece (1 : Fin S50000x256.rank) [⟨S50000x128, a⟩, ⟨S50000x128, b⟩] h _ 1 (by simp)
    S50000x128 b rfl rfl 128 rfl (ix2 p m) ?_ ?_
  · intro d hd
    match d with
    | ⟨0, _⟩ => rfl
    | ⟨1, _⟩ => exact absurd rfl hd
  · rfl

end Concat

/-! ### The stages' index functions as coordinates -/

theorem lidx19 (p : Fin 640000) (q : Fin 128) (k : Fin 384) : lidx_main_v19 (ix2 p q) k = ix2 p k :=
  funext fun a => Fin.ext (by match a with | ⟨0, _⟩ => rfl | ⟨1, _⟩ => rfl)
theorem ridx19 (p : Fin 640000) (q : Fin 128) (k : Fin 384) : ridx_main_v19 (ix2 p q) k = ix2 k q :=
  funext fun a => Fin.ext (by match a with | ⟨0, _⟩ => rfl | ⟨1, _⟩ => rfl)
theorem idx2021 (p : Fin 640000) (q : Fin 128) : idx_main_v20 (idx_main_v21 (ix2 p q)) = ix1 q :=
  funext fun a => Fin.ext (by match a with | ⟨0, _⟩ => rfl)
theorem lidx24 (p : Fin 640000) (q : Fin 128) (k : Fin 128) : lidx_main_v24 (ix2 p q) k = ix2 p k :=
  funext fun a => Fin.ext (by match a with | ⟨0, _⟩ => rfl | ⟨1, _⟩ => rfl)
theorem ridx24 (p : Fin 640000) (q : Fin 128) (k : Fin 128) : ridx_main_v24 (ix2 p q) k = ix2 k q :=
  funext fun a => Fin.ext (by match a with | ⟨0, _⟩ => rfl | ⟨1, _⟩ => rfl)
theorem idx2526 (p : Fin 640000) (q : Fin 128) : idx_main_v25 (idx_main_v26 (ix2 p q)) = ix1 q :=
  funext fun a => Fin.ext (by match a with | ⟨0, _⟩ => rfl)
theorem lidx32 (p : Fin 50000) (q : Fin 128) (k : Fin 256) : lidx_main_v32 (ix2 p q) k = ix2 p k :=
  funext fun a => Fin.ext (by match a with | ⟨0, _⟩ => rfl | ⟨1, _⟩ => rfl)
theorem ridx32 (p : Fin 50000) (q : Fin 128) (k : Fin 256) : ridx_main_v32 (ix2 p q) k = ix2 k q :=
  funext fun a => Fin.ext (by match a with | ⟨0, _⟩ => rfl | ⟨1, _⟩ => rfl)
theorem idx3334 (p : Fin 50000) (q : Fin 128) : idx_main_v33 (idx_main_v34 (ix2 p q)) = ix1 q :=
  funext fun a => Fin.ext (by match a with | ⟨0, _⟩ => rfl)
theorem lidx37 (p : Fin 50000) (q : Fin 128) (k : Fin 128) : lidx_main_v37 (ix2 p q) k = ix2 p k :=
  funext fun a => Fin.ext (by match a with | ⟨0, _⟩ => rfl | ⟨1, _⟩ => rfl)
theorem ridx37 (p : Fin 50000) (q : Fin 128) (k : Fin 128) : ridx_main_v37 (ix2 p q) k = ix2 k q :=
  funext fun a => Fin.ext (by match a with | ⟨0, _⟩ => rfl | ⟨1, _⟩ => rfl)
theorem idx3839 (p : Fin 50000) (q : Fin 128) : idx_main_v38 (idx_main_v39 (ix2 p q)) = ix1 q :=
  funext fun a => Fin.ext (by match a with | ⟨0, _⟩ => rfl)
theorem idx4243 (p : Fin 50000) (k : Fin 128) : idx_main_v42 (idx_main_v43 (ix2 p (0 : Fin 1))) k = ix2 p k :=
  funext fun a => Fin.ext (by match a with | ⟨0, _⟩ => rfl | ⟨1, _⟩ => rfl)
theorem idx46 (p : Fin 50000) (q : Fin 128) : idx_main_v46 (ix2 p q) = ix2 p (0 : Fin 1) :=
  funext fun a => Fin.ext (by match a with | ⟨0, _⟩ => rfl | ⟨1, _⟩ => rfl)
theorem idx4950 (p : Fin 50000) (k : Fin 128) : idx_main_v49 (idx_main_v50 (ix2 p (0 : Fin 1))) k = ix2 p k :=
  funext fun a => Fin.ext (by match a with | ⟨0, _⟩ => rfl | ⟨1, _⟩ => rfl)
theorem idx53 (p : Fin 50000) (q : Fin 128) : idx_main_v53 (ix2 p q) = ix2 p (0 : Fin 1) :=
  funext fun a => Fin.ext (by match a with | ⟨0, _⟩ => rfl | ⟨1, _⟩ => rfl)
theorem idx58 (p : Fin 50000) (q : Fin 128) : idx_main_v58 (ix2 p q) = ix2 p (0 : Fin 1) :=
  funext fun a => Fin.ext (by match a with | ⟨0, _⟩ => rfl | ⟨1, _⟩ => rfl)
theorem idx6061 (p : Fin 50000) (q : Fin 128) : idx_main_v60 (idx_main_v61 (ix2 p q)) = ix1 q :=
  funext fun a => Fin.ext (by match a with | ⟨0, _⟩ => rfl)
theorem idx6364 (p : Fin 50000) (q : Fin 128) : idx_main_v63 (idx_main_v64 (ix2 p q)) = ix1 q :=
  funext fun a => Fin.ext (by match a with | ⟨0, _⟩ => rfl)

section Stages
variable (x0 : (⟨S50000x128, .f32⟩ : BufTy).Contents (Elt Ideal)) (x1 : (⟨S2x640000, .i32⟩ : BufTy).Contents (Elt Ideal))
  (x2 : (⟨S640000x128, .f32⟩ : BufTy).Contents (Elt Ideal)) (x3 : (⟨S384x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 x11 x12 : (⟨S128, .f32⟩ : BufTy).Contents (Elt Ideal))

/-! ### The messages -/

/-- The hidden activations of edge `p`: the product with the whole first-layer matrix is the three products with
    its row blocks. -/
theorem msg_hidden (p : Fin 640000) (l : Fin 128) :
    val_main_v23 (F := Ideal) x0 x1 x2 x3 x4 (ix2 p l) =
      msgHidden (rows (val_main_v10 (F := Ideal) x0 x1) p) (rows (val_main_v17 (F := Ideal) x0 x1) p) (rows x2 p)
        (rowsFrom 0 128 (by norm_num) x3) (rowsFrom 128 128 (by norm_num) x3) (rowsFrom 256 128 (by norm_num) x3) (vec x4) l := by
  rw [val_main_v23_apply, val_main_v22_apply, val_main_v19_apply, val_main_call0_v0_apply, val_main_call0_cst_apply,
    val_main_v21_apply, val_main_v20_apply]
  unfold val_main_v18
  generalize val_main_v10 (F := Ideal) x0 x1 = xs
  generalize val_main_v17 (F := Ideal) x0 x1 = xd
  rw [sum_three_runs]
  simp only [Ideal.maximumf_def, Ideal.addf_def, Ideal.ofBits_def]
  unfold msgHidden lin
  refine congrArg₂ max (congrArg₂ (· + ·) (congrArg₂ (· + ·) (congrArg₂ (· + ·) ?_ ?_) ?_) ?_) rfl
  · exact Finset.sum_congr rfl fun m _ => congrArg₂ (· * ·)
      ((congrArg _ (lidx19 p l _)).trans (concat3_apply0 xs xd x2 _ p m)) (congrArg x3 (ridx19 p l _))
  · exact Finset.sum_congr rfl fun m _ => congrArg₂ (· * ·)
      ((congrArg _ (lidx19 p l _)).trans (concat3_apply1 xs xd x2 _ p m)) (congrArg x3 (ridx19 p l _))
  · exact Finset.sum_congr rfl fun m _ => congrArg₂ (· * ·)
      ((congrArg _ (lidx19 p l _)).trans (concat3_apply2 xs xd x2 _ p m)) (congrArg x3 (ridx19 p l _))
  · exact congrArg x4 (idx2021 p l)

/-- All the messages. -/
theorem msg_eq :
    val_main_v27 (F := Ideal) x0 x1 x2 x3 x4 x5 x6 =
      msgArr (val_main_v10 (F := Ideal) x0 x1) (val_main_v17 (F := Ideal) x0 x1) x2
        (rowsFrom 0 128 (by norm_num) x3) (rowsFrom 128 128 (by norm_num) x3) (rowsFrom 256 128 (by norm_num) x3)
        (vec x4) (rows x5) (vec x6) := by
  funext i
  obtain ⟨p, q, rfl⟩ : ∃ (p : Fin 640000) (q : Fin 128), i = ix2 p q := ⟨i 0, i 1, eq_ix2 i⟩
  rw [msgArr_apply, val_main_v27_apply, val_main_v24_apply, val_main_v26_apply, val_main_v25_apply]
  simp only [Ideal.addf_def]
  unfold msgRow lin
  refine congrArg₂ (· + ·) (Finset.sum_congr rfl fun k _ => congrArg₂ (· * ·) ?_ (congrArg x5 (ridx24 p q k)))
    (congrArg x6 (idx2526 p q))
  rw [lidx24]
  exact msg_hidden x0 x1 x2 x3 x4 p k

/-- The aggregate: the scatter-add of the messages. -/
theorem agg_eq :
    val_main_v30 (F := Ideal) x0 x1 x2 x3 x4 x5 x6 =
      Host.scatterAdd (F := Ideal) (φ := .f32) scatter_S50000x128_S640000x1_S640000x128_1_0_0_1 (val_main_v28 (F := Ideal))
        (val_main_v29 (F := Ideal) x1)
        (msgArr (val_main_v10 (F := Ideal) x0 x1) (val_main_v17 (F := Ideal) x0 x1) x2
          (rowsFrom 0 128 (by norm_num) x3) (rowsFrom 128 128 (by norm_num) x3) (rowsFrom 256 128 (by norm_num) x3)
          (vec x4) (rows x5) (vec x6)) := by
  unfold val_main_v30
  rw [msg_eq]

/-! ### The update -/

/-- The hidden activations of node `p`'s update, over the aggregate as the reference computes it: the product with
    the whole first-layer matrix is the two products with its row blocks. -/
theorem upd_hidden (p : Fin 50000) (l : Fin 128) :
    val_main_v36 (F := Ideal) x0 x1 x2 x3 x4 x5 x6 x7 x8 (ix2 p l) =
      updHidden (rows x0 p) (rows (val_main_v30 (F := Ideal) x0 x1 x2 x3 x4 x5 x6) p)
        (rowsFrom 0 128 (by norm_num) x7) (rowsFrom 128 128 (by norm_num) x7) (vec x8) l := by
  rw [val_main_v36_apply, val_main_v35_apply, val_main_v32_apply, val_main_call1_v0_apply, val_main_call1_cst_apply,
    val_main_v34_apply, val_main_v33_apply]
  unfold val_main_v31
  generalize val_main_v30 (F := Ideal) x0 x1 x2 x3 x4 x5 x6 = agg
  rw [sum_two_runs]
  simp only [Ideal.maximumf_def, Ideal.addf_def, Ideal.ofBits_def]
  unfold updHidden lin
  refine congrArg₂ max (congrArg₂ (· + ·) (congrArg₂ (· + ·) ?_ ?_) ?_) rfl
  · exact Finset.sum_congr rfl fun m _ => congrArg₂ (· * ·)
      ((congrArg _ (lidx32 p l _)).trans (concat2_apply0 x0 agg _ p m)) (congrArg x7 (ridx32 p l _))
  · exact Finset.sum_congr rfl fun m _ => congrArg₂ (· * ·)
      ((congrArg _ (lidx32 p l _)).trans (concat2_apply1 x0 agg _ p m)) (congrArg x7 (ridx32 p l _))
  · exact congrArg x8 (idx3334 p l)

/-- Node `p`'s row after the residual update, before normalisation. -/
theorem upd_pre (p : Fin 50000) (q : Fin 128) :
    val_main_v41 (F := Ideal) x0 x1 x2 x3 x4 x5 x6 x7 x8 x9 x10 (ix2 p q) =
      updPre (rows x0 p) (rows (val_main_v30 (F := Ideal) x0 x1 x2 x3 x4 x5 x6) p)
        (rowsFrom 0 128 (by norm_num) x7) (rowsFrom 128 128 (by norm_num) x7) (vec x8) (rows x9) (vec x10) q := by
  rw [val_main_v41_apply, val_main_v40_apply, val_main_v37_apply, val_main_v39_apply, val_main_v38_apply]
  simp only [Ideal.addf_def]
  unfold updPre lin
  refine congrArg₂ (· + ·) rfl (congrArg₂ (· + ·)
    (Finset.sum_congr rfl fun k _ => congrArg₂ (· * ·) ?_ (congrArg x9 (ridx37 p q k))) (congrArg x10 (idx3839 p q)))
  rw [lidx37]
  exact upd_hidden x0 x1 x2 x3 x4 x5 x6 x7 x8 p k

/-- The mean of node `p`'s row: the host's sum from the zero word, over the word for 128. -/
theorem mean_eq (p : Fin 50000) :
    val_main_v45 (F := Ideal) x0 x1 x2 x3 x4 x5 x6 x7 x8 x9 x10 (ix2 p (0 : Fin 1)) =
      rowMean (updPre (rows x0 p) (rows (val_main_v30 (F := Ideal) x0 x1 x2 x3 x4 x5 x6) p)
        (rowsFrom 0 128 (by norm_num) x7) (rowsFrom 128 128 (by norm_num) x7) (vec x8) (rows x9) (vec x10)) := by
  rw [val_main_v45_apply, val_main_v43_apply, val_main_v42_apply, val_main_cst_3_apply, val_main_v44_apply,
    val_main_cst_4_apply]
  simp only [Ideal.hostDivf_def, Ideal.ofBits_def, Ideal.ofBits_zero_f32, zero_add]
  unfold rowMean
  refine congrArg₂ Ideal.div (Finset.sum_congr rfl fun k _ => ?_) rfl
  rw [idx4243]
  exact upd_pre x0 x1 x2 x3 x4 x5 x6 x7 x8 x9 x10 p k

/-- Node `p`'s row with its mean taken off, as the variance reads it. -/
theorem centred_eq (p : Fin 50000) (q : Fin 128) :
    val_main_v47 (F := Ideal) x0 x1 x2 x3 x4 x5 x6 x7 x8 x9 x10 (ix2 p q) =
      centred (updPre (rows x0 p) (rows (val_main_v30 (F := Ideal) x0 x1 x2 x3 x4 x5 x6) p)
        (rowsFrom 0 128 (by norm_num) x7) (rowsFrom 128 128 (by norm_num) x7) (vec x8) (rows x9) (vec x10)) q := by
  rw [val_main_v47_apply, val_main_v46_apply, idx46, mean_eq, upd_pre]
  rfl

/-- The variance of node `p`'s row. -/
theorem var_eq (p : Fin 50000) :
    val_main_v52 (F := Ideal) x0 x1 x2 x3 x4 x5 x6 x7 x8 x9 x10 (ix2 p (0 : Fin 1)) =
      rowMean (fun q => centred (updPre (rows x0 p) (rows (val_main_v30 (F := Ideal) x0 x1 x2 x3 x4 x5 x6) p)
          (rowsFrom 0 128 (by norm_num) x7) (rowsFrom 128 128 (by norm_num) x7) (vec x8) (rows x9) (vec x10)) q
        * centred (updPre (rows x0 p) (rows (val_main_v30 (F := Ideal) x0 x1 x2 x3 x4 x5 x6) p)
          (rowsFrom 0 128 (by norm_num) x7) (rowsFrom 128 128 (by norm_num) x7) (vec x8) (rows x9) (vec x10)) q) := by
  rw [val_main_v52_apply, val_main_v50_apply, val_main_v49_apply, val_main_cst_5_apply, val_main_v51_apply,
    val_main_cst_6_apply]
  simp only [Ideal.hostDivf_def, Ideal.ofBits_def, Ideal.ofBits_zero_f32, zero_add]
  unfold rowMean
  refine congrArg₂ Ideal.div (Finset.sum_congr rfl fun k _ => ?_) rfl
  rw [idx4950, val_main_v48_apply, centred_eq]
  rfl

/-- Node `p`'s output row. -/
theorem out_eq (p : Fin 50000) (q : Fin 128) :
    val_main_v65 (F := Ideal) x0 x1 x2 x3 x4 x5 x6 x7 x8 x9 x10 x11 x12 (ix2 p q) =
      updRow (rows x0 p) (rows (val_main_v30 (F := Ideal) x0 x1 x2 x3 x4 x5 x6) p)
        (rowsFrom 0 128 (by norm_num) x7) (rowsFrom 128 128 (by norm_num) x7) (vec x8) (rows x9) (vec x10) (vec x11) (vec x12) q := by
  rw [val_main_v65_apply, val_main_v62_apply, val_main_v59_apply, val_main_v54_apply, val_main_v53_apply, val_main_v58_apply,
    val_main_v57_apply, val_main_v56_apply, val_main_v55_apply, val_main_cst_7_apply, val_main_v61_apply, val_main_v60_apply,
    val_main_v64_apply, val_main_v63_apply, idx53, idx58, mean_eq, var_eq, upd_pre, idx6061, idx6364]
  simp only [Ideal.addf_def, Ideal.mulf_def, Ideal.subf_def, Ideal.hostUnary_rsqrt_def, Ideal.ofBits_def]
  rfl

end Stages

/-- The reference's last stage, as a function of the argument arrays, is the layer of them. -/
theorem result_eq (x0 : (⟨S50000x128, .f32⟩ : BufTy).Contents (Elt Ideal)) (x1 : (⟨S2x640000, .i32⟩ : BufTy).Contents (Elt Ideal))
    (x2 : (⟨S640000x128, .f32⟩ : BufTy).Contents (Elt Ideal)) (x3 : (⟨S384x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x9 : (⟨S128x128, .f32⟩ : BufTy).Contents (Elt Ideal))
    (x10 x11 x12 : (⟨S128, .f32⟩ : BufTy).Contents (Elt Ideal)) :
    Read.val_main_v65 (F := Ideal) x0 x1 x2 x3 x4 x5 x6 x7 x8 x9 x10 x11 x12 = layerOf x0 x1 x2 x3 x4 x5 x6 x7 x8 x9 x10 x11 x12 := by
  funext i
  obtain ⟨p, q, rfl⟩ : ∃ (p : Fin 50000) (q : Fin 128), i = ix2 p q := ⟨i 0, i 1, eq_ix2 i⟩
  rw [out_eq, agg_eq]
  rfl

end Cert.ReferenceIdeal.RefValue

end
-- ==== Proof.lean ====
/-
  A graph message-passing layer: the kernel program and its reference compute the same array over the extended reals.

  Both programs gather every edge's source and destination node rows, run a two-layer perceptron per edge on (source row,
  destination row, edge row), add each edge's message into its destination node, run a second two-layer perceptron per
  node on (node row, aggregate row), add the node row back and layer-normalise. The kernel program runs the two
  perceptrons as two kernels over row blocks, each first-layer product split by row blocks of its weight matrix; the
  reference concatenates its inputs and multiplies once. On the extended reals a sum over 384 (or 256) terms is the sum of
  its three (two) runs of 128 — addition there is commutative and associative, nothing is distributed or cancelled — so the
  two agree with no use of the inputs' finiteness. The gathers and the scatter-add are the same host operations in both
  programs and are carried as they stand.

  The kernel program's frames are the generated ones; its value is read off the same launch with the result array named
  (KernelRun, KernelValue); the reference's run and stages are the generated ones (RefValue reads them); the idealization
  rewrote nothing.
-/
import proofs.«153208_j42099269435541_1_alg».proof.Defs
import proofs.«153208_j42099269435541_1_alg».proof.Proof.Gen.Kernel
import proofs.«153208_j42099269435541_1_alg».proof.Proof.Gen.Kernel.Frame
import proofs.«153208_j42099269435541_1_alg».proof.Proof.Gen.KernelIdeal
import proofs.«153208_j42099269435541_1_alg».proof.Proof.Gen.KernelIdeal.Frame
import proofs.«153208_j42099269435541_1_alg».proof.Proof.Gen.ReferenceIdeal
import proofs.«153208_j42099269435541_1_alg».proof.Proof.Gen.ReferenceIdeal.Run
import proofs.«153208_j42099269435541_1_alg».proof.Proof.Gen.ReferenceIdeal.Read
import proofs.«153208_j42099269435541_1_alg».proof.Proof.Gen.Pre_finite_inputs
import proofs.«153208_j42099269435541_1_alg».proof.Proof.KernelValue
import proofs.«153208_j42099269435541_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the (agreeing) argument arrays in their result array. -/
theorem algebraic : Cert.algebraic_KernelIdeal_ReferenceIdeal := by
  intro m ρ m' ρ' _ hagree
  refine ⟨fun c => Cert.ReferenceIdeal.layerOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v65_eq, Cert.ReferenceIdeal.RefValue.result_eq, h0, h1, h2, h3, h4, h5, h6, h7, h8, h9,
    h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
